-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S2x640000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x640000 32 := (extractStridedSlice S1x640000 ![0, 0] · slices_S2x640000_S1x640000_0_0) main_arg1
  let main_v25 : IVec S640000 32 := shapeCast S640000 main_v24 shapeCasts_S1x640000_S640000
  let main_c_8 : IVec S_ 32 := constantI S_ 32 4294867296#32
  let main_v26 : IVec S640000 32 := broadcastInDim S640000 ![] bcast_S_S640000 main_c_8
  let main_v27 : IVec S640000 1 := cmpi .sge main_v25 main_v26
  let main_v28 : IVec S1x640000 32 := (extractStridedSlice S1x640000 ![0, 0] · slices_S2x640000_S1x640000_0_0) main_arg1
  let main_v29 : IVec S640000 32 := shapeCast S640000 main_v28 shapeCasts_S1x640000_S640000
  let main_c_9 : IVec S_ 32 := constantI S_ 32 100000#32
  let main_v30 : IVec S640000 32 := broadcastInDim S640000 ![] bcast_S_S640000 main_c_9
  let main_v31 : IVec S640000 1 := cmpi .slt main_v29 main_v30
  let main_v32 : IVec S640000 1 := andi main_v27 main_v31
  let main_c_10 : IVec S_ 1 := constantI S_ 1 1#1
  let main_v33 : IVec S_ 1 := (fun x v => Host.reduce IntOp.andi x v reducesTo_S640000_S_d0 h_S_) main_v32 main_c_10
  let main_v34 : IVec S_ 1 := andi main_v23 main_v33
  main_v34

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 50
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S_, .f32⟩
  | .hbm, ⟨38, _⟩ => ⟨S640000, .f32⟩
  | .hbm, ⟨39, _⟩ => ⟨S_, .f32⟩
  | .hbm, ⟨40, _⟩ => ⟨S100000, .f32⟩
  | .hbm, ⟨41, _⟩ => ⟨S640000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S100000x128, .f32⟩
  | .hbm, ⟨21, _⟩ => ⟨S640000x1, .i32⟩
  | .hbm, ⟨22, _⟩ => ⟨S100000x128, .f32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S100000, .f32⟩
  | .hbm, ⟨27, _⟩ => ⟨S640000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.PreRange.lean ====
/-
  What the precondition says about the source indices: every entry of the first row of the edge list, read as a
  signed 32-bit word, lies in [-100000, 100000) — the range in which indexing a 100000-row array is defined
  (a negative index counting from the end).
-/
import proofs.«416836_j70231305225060_1_alg».proof.Proof.Gen.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

variable {F : FTy → Type} [FloatOps F]

/-- The source indices: the first row of the [2, 640000] edge list as a vector. -/
def src (ei : IVec S2x640000 32) : IVec S640000 32 :=
  shapeCast S640000 (extractStridedSlice S1x640000 ![0, 0] ei slices_S2x640000_S1x640000_0_0) shapeCasts_S1x640000_S640000

instance : Subsingleton S_.Idx := ⟨fun a b => funext fun d => d.elim0⟩

/-- Under the precondition every source index passes both range tests. -/
theorem src_range (a0 : FVec F S100000x128 .f32) (a1 : IVec S2x640000 32) (a2 : FVec F S128x128 .f32) (a3 : FVec F S128 .f32)
    (a4 : FVec F S128x128 .f32) (a5 : FVec F S128 .f32) (h : fn (F := F) a0 a1 a2 a3 a4 a5 = fun _ => 1#1) (e : S640000.Idx) :
    IntOp.cmpi .sge (src a1 e) 4294867296#32 = 1#1 ∧ IntOp.cmpi .slt (src a1 e) 100000#32 = 1#1 := by
  have h0 := congrFun h ValueIdx.ix0
  dsimp only [fn, fn_part1] at h0
  have h1 := (IntOp.andi_eq_one.1 h0).2
  have h2 := Host.reduce_andi_all _ _ _ _ _ h1 e
  exact IntOp.andi_eq_one.1 h2

end Cert.Pre_finite_inputs.Range

end
-- ==== Proof.IndexRange.lean ====
/-
  A source index that reads, signed, in [-100000, 100000) and is wrapped the way array indexing wraps it (a negative
  index counts from the end: 100000 is added to it) lies in [0, 99999]. The bounds test that guards a row take
  therefore holds at such an index.
-/
import Idealize.ShloMosaic.Lib.Affine

namespace Cert.IndexRange

open Idealize.ShloMosaic

/-- The wrapped index: `s + 100000` when `s` is negative, `s` otherwise. -/
def wrap (s : BitVec 32) : BitVec 32 :=
  Scalar.select (IntOp.cmpi .slt s 0#32) (IntOp.addi s 100000#32) s

/-- For `-100000 ≤ s < 100000` (signed) the wrapped index passes both bounds tests `0 ≤ · ≤ 99999`. -/
theorem wrap_in_range (s : BitVec 32)
    (hlo : IntOp.cmpi .sge s 4294867296#32 = 1#1) (hhi : IntOp.cmpi .slt s 100000#32 = 1#1) :
    IntOp.cmpi .sge (wrap s) 0#32 = 1#1 ∧ IntOp.cmpi .sle (wrap s) 99999#32 = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [IntOp.cmpi_sge, e1] at hlo
  rw [IntOp.cmpi_slt, e2] at hhi
  rw [IntOp.cmpi_sge, IntOp.cmpi_sle, e3, e4]
  unfold wrap Scalar.select
  by_cases hc' : IntOp.cmpi .slt s 0#32 = (1 : BitVec 1)
  · rw [if_pos hc']
    have hc : IntOp.cmpi .slt s 0#32 = 1#1 := hc'
    rw [IntOp.cmpi_slt, e3] at hc
    have hs : (IntOp.addi s 100000#32).toInt = s.toInt + 100000 := by
      rw [IntOp.addi, BitVec.toInt_add, e2]
      exact Int.bmod_eq_of_le (by omega) (by omega)
    rw [hs]; omega
  · rw [if_neg hc']
    have hc : ¬ IntOp.cmpi .slt s 0#32 = 1#1 := hc'
    rw [IntOp.cmpi_slt, e3] at hc
    omega

end Cert.IndexRange
-- ==== Proof.TakeMask.lean ====
/-
  The guarded row take, when every source index is in range.

  The kernel's program takes rows of the feature array at the wrapped source indices and keeps a taken row only where
  the wrapped index passes `0 ≤ · ≤ 99999`, filling the row with a not-a-number pattern elsewhere. When every source
  index lies in [-100000, 100000) the test passes at every edge, so the guarded take is the plain gather of the rows.
-/
import proofs.«416836_j70231305225060_1_alg».proof.Proof.Gen.KernelIdeal
import proofs.«416836_j70231305225060_1_alg».proof.Proof.IndexRange
import Idealize.ShloMosaic.Lib.ReduceAll
import Idealize.ShloMosaic.Lib.ValueIdx
import Idealize.ShloMosaic.Lib.Pipeline.Value

noncomputable section

namespace Cert.KernelIdeal.Take

open Cert.KernelIdeal Cert.KernelIdeal.Facts₀ Cert.KernelIdeal.Facts Idealize.ShloMosaic Idealize.ShloMosaic.ValueIdx

variable {F : FTy → Type} [FloatOps F]

/-- A left fold by `and` from 1 over words that are all 1 is 1. -/
theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- The wrapped source indices as the [640000, 1] column of start indices the gather reads. -/
def idxCol (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 100000#32))) s)

/-- Per edge: does the wrapped index pass `0 ≤ · ≤ 99999`? (An `and` over the column's one entry per edge.) -/
def inBounds (s : IVec S640000 32) : IVec S640000 1 :=
  Host.reduce IntOp.andi
    (andi (cmpi .sge (idxCol s) (broadcastInDim S640000x1 ![] bcast_S_S640000x1 (constantI S_ 32 0#32)))
      (cmpi .sle (idxCol s) (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

/-- Row `i 0` of the index column is the wrapped source index of that edge. -/
theorem idxCol_apply (s : IVec S640000 32) (i : S640000x1.Idx) :
    idxCol s i = Cert.IndexRange.wrap (s (ix1 (i 0))) := by
  unfold idxCol
  rw [broadcastInDim_apply _ bcast_S640000_S640000x1_0 _ i (ix1 (i 0)) (fun a => match a with
    | ⟨0, _⟩ => by show (i 0).val = if (640000 : Nat) = 1 then 0 else (i 0).val; rw [if_neg (by decide)])]
  rfl

/-- With every source index in [-100000, 100000) the bounds test passes at every edge. -/
theorem inBounds_eq_one (s : IVec S640000 32)
    (hs : ∀ e, IntOp.cmpi .sge (s e) 4294867296#32 = 1#1 ∧ IntOp.cmpi .slt (s e) 100000#32 = 1#1) (e : S640000.Idx) :
    inBounds s e = 1#1 := by
  unfold inBounds
  rw [Host.reduce_eq_foldl]
  refine foldl_andi_ones _ (fun i => ?_) _
  show IntOp.andi (IntOp.cmpi .sge (idxCol s i) 0#32) (IntOp.cmpi .sle (idxCol s i) 99999#32) = 1#1
  rw [idxCol_apply, IntOp.andi_eq_one]
  exact Cert.IndexRange.wrap_in_range _ (hs _).1 (hs _).2

/-- So the guarded take is the gather itself. -/
theorem take_eq_gather (x : FVec F S100000x128 .f32) (s : IVec S640000 32)
    (hs : ∀ e, IntOp.cmpi .sge (s e) 4294867296#32 = 1#1 ∧ IntOp.cmpi .slt (s e) 100000#32 = 1#1) :
    select (broadcastInDim S640000x128 ![0] bcast_S640000_S640000x128_0 (inBounds s))
        (Host.gather gather_S100000x128_S640000x1_S640000x128_1_0_n_n_0_1_1128 x (idxCol s))
        (broadcastInDim S640000x128 ![] bcast_S_S640000x128 (constant S_ .f32 0x7FC00000#32))
      = Host.gather gather_S100000x128_S640000x1_S640000x128_1_0_n_n_0_1_1128 x (idxCol s) := by
  funext j
  rw [select_apply]
  have hm : broadcastInDim S640000x128 ![0] bcast_S640000_S640000x128_0 (inBounds s) j = 1#1 := by
    rw [broadcastInDim_apply _ bcast_S640000_S640000x128_0 _ j (ix1 (j 0)) (fun a => match a with
      | ⟨0, _⟩ => by show (j 0).val = if (640000 : Nat) = 1 then 0 else (j 0).val; rw [if_neg (by decide)])]
    exact inBounds_eq_one s hs _
  rw [hm]
  exact if_pos rfl

end Cert.KernelIdeal.Take

end
-- ==== Proof.HostAgg.lean ====
/-
  The aggregated array the kernel's region reads.

  Before the region the program takes the feature rows at the wrapped source indices (guarded by the bounds test),
  scatter-adds them onto the destination nodes, counts each node's incoming edges the same way, and divides each
  node's summed row by the larger of its count and 1. That array is what the region's second input window stages.
  When every source index is in range the guard keeps every taken row, and the array is exactly the reference's own
  degree-normalised aggregate, operation for operation.
-/
import proofs.«416836_j70231305225060_1_alg».proof.Proof.Gen.KernelIdeal.Frame
import proofs.«416836_j70231305225060_1_alg».proof.Proof.Gen.ReferenceIdeal.Read
import proofs.«416836_j70231305225060_1_alg».proof.Proof.TakeMask
import Idealize.ShloMosaic.Lib.StableHlo.Run

noncomputable section

namespace Cert.KernelIdeal.HostAgg

open Cert.KernelIdeal Cert.KernelIdeal.Facts₀ Cert.KernelIdeal.Facts Idealize.ShloMosaic Idealize.ShloMosaic.TcCoe
open Idealize.SL.Sem Idealize.ShloMosaic.StableHlo

variable {F : FTy → Type} [FloatOps F]

/-- The source indices: row 0 of the edge list. -/
def srcOf (ei : IVec S2x640000 32) : IVec S640000 32 :=
  shapeCast S640000 (extractStridedSlice S1x640000 ![0, 0] ei slices_S2x640000_S1x640000_0_0) shapeCasts_S1x640000_S640000

/-- The destination indices: row 1 of the edge list. -/
def dstOf (ei : IVec S2x640000 32) : IVec S640000 32 :=
  shapeCast S640000 (extractStridedSlice S1x640000 ![1, 0] ei slices_S2x640000_S1x640000_1_0) shapeCasts_S1x640000_S640000

/-- The rows `g` (one per edge) summed onto their destination nodes `d`, each node's sum divided by the larger of its
    number of incoming edges and 1. -/
def normAgg (g : FVec F S640000x128 .f32) (d : IVec S640000 32) : FVec F S100000x128 .f32 :=
  Host.divf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 d) g)
    (broadcastInDim S100000x128 ![0, 1] bcast_S100000x1_S100000x128_0_1
      (broadcastInDim S100000x1 ![0] bcast_S100000_S100000x1_0
        (maximumf
          (Host.scatterAdd scatter_S100000_S640000x1_S640000_n_0_0_1
            (broadcastInDim S100000 ![] bcast_S_S100000 (constant S_ .f32 0x00000000#32))
            (broadcastInDim S640000x1 ![0] bcast_S640000_S640000x1_0 d)
            (broadcastInDim S640000 ![] bcast_S_S640000 (constant S_ .f32 0x3F800000#32)))
          (broadcastInDim S100000 ![] bcast_S_S100000 (constant S_ .f32 0x3F800000#32)))))

/-- The guarded take of the rows of `x` at the wrapped source indices. -/
def guardedTake (x : FVec F S100000x128 .f32) (s : IVec S640000 32) : FVec F S640000x128 .f32 :=
  select (broadcastInDim S640000x128 ![0] bcast_S640000_S640000x128_0 (Take.inBounds s))
    (Host.gather gather_S100000x128_S640000x1_S640000x128_1_0_n_n_0_1_1128 x (Take.idxCol s))
    (broadcastInDim S640000x128 ![] bcast_S_S640000x128 (constant S_ .f32 0x7FC00000#32))

variable (m : (ℓ : Loc nD τ sig) → Buf (Elt F) ℓ)

set_option maxRecDepth 65536 in
set_option maxHeartbeats 2000000 in
/-- The array the region's second input window stages, as a function of the feature array and the edge list. -/
theorem V_agg (c : Dev nD) :
    (Gen.V m c main_v16 : S100000x128.Idx → F .f32)
      = normAgg (guardedTake (m ((c : Thread nD τ).loc main_arg0)) (srcOf (m ((c : Thread nD τ).loc main_arg1))))
          (dstOf (m ((c : Thread nD τ).loc main_arg1))) := by
  unfold normAgg guardedTake srcOf dstOf Take.inBounds Take.idxCol
  dsimp only [Gen.V]
  simp only [Gen.hostOps0, Gen.hostOps0_1, Gen.hostOps0_2, List.flatten_cons, List.flatten_nil, List.append_nil,
    List.cons_append, List.nil_append]
  after_results_simp
  simp only [TRef.toBuf, TRef.ofBuf, cast_eq]
  rfl

/-- With every source index in [-100000, 100000) that array is the reference's degree-normalised aggregate. -/
theorem agg_eq_ref (x : FVec F S100000x128 .f32) (ei : IVec S2x640000 32)
    (hs : ∀ e, IntOp.cmpi .sge (srcOf ei e) 4294867296#32 = 1#1 ∧ IntOp.cmpi .slt (srcOf ei e) 100000#32 = 1#1) :
    normAgg (guardedTake x (srcOf ei)) (dstOf ei) = Cert.ReferenceIdeal.Read.val_main_v22 (F := F) x ei := by
  unfold guardedTake
  rw [Take.take_eq_gather x _ hs]
  rfl

end Cert.KernelIdeal.HostAgg

end
-- ==== Proof.Spec.lean ====
/-
  The dense half of one message-passing layer, entry by entry, on the extended reals.

  A node's output row is built from two rows: the node's own feature row and the row aggregated from its
  neighbours (the sum of the source rows over its incoming edges, divided by the larger of its in-degree and 1).
  Entry `c` of the output row is

      max ((Σ_k xrow k · Ws[k, c] + bs[c]) + (Σ_k arow k · Wn[k, c] + bn[c]), 0).

  The same function describes a row of a 5000-row block and a row of the whole 100000-row array, so it is stated
  on rows, with no array extent in it.
-/
import Idealize.ShloMosaic.PureOps.Ideal
import Idealize.ShloMosaic.Lib.ValueIdx

noncomputable section

namespace Cert.Layer

open Idealize.ShloMosaic Idealize.ShloMosaic.ValueIdx

/-- Entry `c` of one node's output row from the node's feature row `xrow`, its aggregated neighbour row `arow`,
    the self and neighbour weight matrices and the two biases. -/
def entry (xrow arow : Fin 128 → EReal) (Ws Wn : (⟨2, ![128, 128]⟩ : Shape).Idx → EReal)
    (bs bn : (⟨1, ![128]⟩ : Shape).Idx → EReal) (c : Fin 128) : EReal :=
  max ((∑ k : Fin 128, xrow k * Ws (ix2 k c) + bs (ix1 c)) + (∑ k : Fin 128, arow k * Wn (ix2 k c) + bn (ix1 c)))
    (Ideal.ofBits .f32 0x00000000#32)

/-- The layer's output over all 100000 nodes: row `r` from row `r` of the features `x` and row `r` of the
    aggregated array `A`. -/
def out (x A : (⟨2, ![100000, 128]⟩ : Shape).Idx → EReal) (Ws Wn : (⟨2, ![128, 128]⟩ : Shape).Idx → EReal)
    (bs bn : (⟨1, ![128]⟩ : Shape).Idx → EReal) : (⟨2, ![100000, 128]⟩ : Shape).Idx → EReal :=
  fun i => entry (fun k => x (ix2 (i 0) k)) (fun k => A (ix2 (i 0) k)) Ws Wn bs bn (i 1)

/-- Equal rows, weights and biases give equal entries. -/
theorem entry_congr {xrow xrow' arow arow' : Fin 128 → EReal} {Ws Ws' Wn Wn' : (⟨2, ![128, 128]⟩ : Shape).Idx → EReal}
    {bs bs' bn bn' : (⟨1, ![128]⟩ : Shape).Idx → EReal} (h0 : xrow = xrow') (h1 : arow = arow') (h2 : Ws = Ws')
    (h3 : Wn = Wn') (h4 : bs = bs') (h5 : bn = bn') (c : Fin 128) :
    entry xrow arow Ws Wn bs bn c = entry xrow' arow' Ws' Wn' bs' bn' c := by
  subst h0 h1 h2 h3 h4 h5; rfl

/-- Adding the second bias last or inside the second summand is the same: addition on the extended reals is
    associative, with no finiteness needed. -/
theorem regroup (a b c d : EReal) : ((a + b) + c) + d = (a + b) + (c + d) := add_assoc _ _ _

end Cert.Layer

end
-- ==== Proof.BlockValue.lean ====
/-
  What the kernel body stores, entry by entry: for a 5000-row block of the features and the matching block of the
  aggregated array, entry (p, q) of the stored block is the layer's entry `q` for row `p` of the two blocks. The two
  products into a zero accumulator are the two sums over the 128 feature columns; the narrowing of the operands
  to a 16-bit format before each product is the identity on the extended reals; each bias row, cast to a [1, 128] row and
  broadcast down the block, is read at the output column.
-/
import proofs.«416836_j70231305225060_1_alg».proof.Proof.Gen.KernelIdeal.Skeleton
import proofs.«416836_j70231305225060_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx

/-! ## The block product's operand indices -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] × [128, 128] product into the zero accumulator, at entry (p, q): row `p` of the left operand against
    column `q` of the right. -/
theorem matmul_entry {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A bias vector as a [1, 128] row broadcast down the block, at entry (p, q): the bias at `q`. -/
theorem bias_entry (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- A maximum of two arrays, read at an index. -/
theorem maximumf_at {s : Shape} (a b : FVec Ideal s .f32) (i : s.Idx) : maximumf a b i = max (a i) (b i) := rfl
/-- A sum of two arrays, read at an index. -/
theorem addf_at {s : Shape} (a b : FVec Ideal s .f32) (i : s.Idx) : addf a b i = a i + b i := rfl

/-- The stored block at entry (p, q) is the layer's entry `q` of row `p`. -/
theorem pay_apply (v0 v1 : Vec Ideal S5000x128 .f32) (v5 v7 : Vec Ideal S128x128 .f32) (v10 v15 : Vec Ideal S128 .f32)
    (p : Fin 5000) (q : Fin 128) :
    k0_pay1 (F := Ideal) v0 v1 v5 v7 v10 v15 (ix2 p q)
      = Cert.Layer.entry (fun k => v0 (ix2 p k)) (fun k => v1 (ix2 p k)) v5 v7 v10 v15 q := by
  unfold k0_pay1
  rw [maximumf_at, addf_at, addf_at, addf_at, matmul_entry, matmul_entry, bias_entry, bias_entry, shapeCast_self]
  rfl

end Cert.KernelIdeal.BlockValue

end
-- ==== Proof.KernelArray.lean ====
/-
  From blocks to the whole array. The region runs over 20 grid points; point `t` reads rows 5000·t … 5000·t + 4999 of
  the feature array and of the aggregated array (and the whole of both weight matrices and both biases) and writes
  the same rows of the output. Row `p` of point `t`'s blocks is row 5000·t + p of the arrays, so what point `t` writes
  back is block `t` of the layer's output function of the arrays as the region finds them; the 20 blocks cover the
  output array, which therefore ends holding that function everywhere.
-/
import proofs.«416836_j70231305225060_1_alg».proof.Proof.Gen.KernelIdeal.Value
import proofs.«416836_j70231305225060_1_alg».proof.Proof.BlockValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The index maps, decided over the 20 grid points: the feature, aggregate and output windows sit at block row `t`,
    block column 0; the weight and bias windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The layer's output as a function of the arrays the region finds. -/
def G (c : Dev nD) : S100000x128.Idx → EReal :=
  Cert.Layer.out (V m c main_arg0) (V m c main_v16) (V m c main_arg2) (V m c main_arg4) (V m c main_arg3) (V m c main_arg5)

/-- Rows 5000·t … 5000·t + 4999 of a [100000, 128] array are point `t`'s block of the feature window: row `p` of
    the block is row 5000·t + p of the array. -/
theorem rows_features (X : S100000x128.Idx → EReal) (t : Fin cfg0.N) (p : Fin 5000) (hr : t.val * 5000 + p.val < 100000) (k : Fin 128) :
    ((cfg0.win 0).blk t).view.read (Elt Ideal) X (ix2 p k) = X (ix2 (⟨t.val * 5000 + p.val, hr⟩ : Fin 100000) k) := by
  obtain ⟨e00, e01, -⟩ := idx_facts t
  show X (((cfg0.win 0).blk t).view.emb (ix2 p k)) = _
  refine congrArg X (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The same for the aggregate window. -/
theorem rows_aggregate (X : S100000x128.Idx → EReal) (t : Fin cfg0.N) (p : Fin 5000) (hr : t.val * 5000 + p.val < 100000) (k : Fin 128) :
    ((cfg0.win 1).blk t).view.read (Elt Ideal) X (ix2 p k) = X (ix2 (⟨t.val * 5000 + p.val, hr⟩ : Fin 100000) k) := by
  obtain ⟨-, -, e10, e11, -⟩ := idx_facts t
  show X (((cfg0.win 1).blk t).view.emb (ix2 p k)) = _
  refine congrArg X (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Each point's block of the self-weight window is the whole matrix. -/
theorem whole_Ws (X : S128x128.Idx → EReal) (t : Fin cfg0.N) : ((cfg0.win 2).blk t).view.read (Elt Ideal) X = X := funext fun y => by
  obtain ⟨-, -, -, -, e20, e21, -⟩ := idx_facts t
  show X (((cfg0.win 2).blk t).view.emb y) = X y
  refine congrArg X (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Each point's block of the self-bias window is the whole vector. -/
theorem whole_bs (X : S128.Idx → EReal) (t : Fin cfg0.N) : ((cfg0.win 3).blk t).view.read (Elt Ideal) X = X := funext fun y => by
  obtain ⟨-, -, -, -, -, -, e30, -⟩ := idx_facts t
  show X (((cfg0.win 3).blk t).view.emb y) = X y
  refine congrArg X (funext fun a => Fin.ext ?_)
  match a with
  | ⟨0, _⟩ => show win0_3.index t (0 : Fin 1) * 128 + 1 * (y 0).val = (y 0).val; omega

/-- Each point's block of the neighbour-weight window is the whole matrix. -/
theorem whole_Wn (X : S128x128.Idx → EReal) (t : Fin cfg0.N) : ((cfg0.win 4).blk t).view.read (Elt Ideal) X = X := funext fun y => by
  obtain ⟨-, -, -, -, -, -, -, e40, e41, -⟩ := idx_facts t
  show X (((cfg0.win 4).blk t).view.emb y) = X y
  refine congrArg X (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Each point's block of the neighbour-bias window is the whole vector. -/
theorem whole_bn (X : S128.Idx → EReal) (t : Fin cfg0.N) : ((cfg0.win 5).blk t).view.read (Elt Ideal) X = X := funext fun y => by
  obtain ⟨-, -, -, -, -, -, -, -, -, e50, -⟩ := idx_facts t
  show X (((cfg0.win 5).blk t).view.emb y) = X y
  refine congrArg X (funext fun a => Fin.ext ?_)
  match a with
  | ⟨0, _⟩ => show win0_5.index t (0 : Fin 1) * 128 + 1 * (y 0).val = (y 0).val; omega

/-- Entry (p, q) of point `t`'s output block sits at (5000·t + p, q) of the output array. -/
theorem out_index (t : Fin cfg0.N) (p : Fin 5000) (q : Fin 128) (hr : t.val * 5000 + p.val < 100000) :
    ((cfg0.win 6).blk t).view.emb (ix2 p q) = ix2 (⟨t.val * 5000 + p.val, hr⟩ : Fin 100000) q := by
  obtain ⟨-, -, -, -, -, -, -, -, -, -, e60, e61⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

set_option maxHeartbeats 1000000 in
/-- What point `t` writes back is block `t` of that function. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero origin2]
  simp only [View.ld_unit_zero (S := S5000x128) origin2, View.ld_unit_zero (S := S128x128) origin2, View.ld_unit_zero (S := S128) origin1]
  funext j
  obtain ⟨p, q, rfl⟩ : ∃ (p : Fin 5000) (q : Fin 128), j = ix2 p q := ⟨j 0, j 1, eq_ix2 j⟩
  have hr : t.val * 5000 + p.val < 100000 := by have := t.isLt; have := p.isLt; have hN : cfg0.N = 20 := N_0; omega
  show k0_pay1 (iblk m c 0 t) (iblk m c 1 t) (iblk m c 2 t) (iblk m c 4 t) (iblk m c 3 t) (iblk m c 5 t) (ix2 p q)
      = G m c (((cfg0.win 6).blk t).view.emb (ix2 p q))
  refine (BlockValue.pay_apply (iblk m c 0 t) (iblk m c 1 t) (iblk m c 2 t) (iblk m c 4 t) (iblk m c 3 t) (iblk m c 5 t) p q).trans ?_
  rw [out_index t p q hr]
  unfold G Cert.Layer.out iblk
  exact Cert.Layer.entry_congr (funext fun k => rows_features (V m c main_arg0) t p hr k)
    (funext fun k => rows_aggregate (V m c main_v16) t p hr k)
    (whole_Ws (V m c main_arg2) t) (whole_Wn (V m c main_arg4) t) (whole_bs (V m c main_arg3) t) (whole_bn (V m c main_arg5) t) q

/-- An index of the output array lies in point `t`'s block iff each coordinate lies in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v17).slice (win0_6.rect t)).set ↔ _
  rw [View.set_slice_whole, Rect.mem_set_unit]
  exact Iff.rfl

/-- Every index of the output array lies in the block of the point its row belongs to: row `r` in block `r / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_6 _, ?_⟩
  rw [mem_blk]
  obtain ⟨-, -, -, -, -, -, -, -, -, -, e60, e61⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e61]; omega

/-- The output array after the run is the layer's output function of the arrays the region finds. -/
theorem final (c : Dev nD) : (dats m 0 c).arrAt 6 cfg0.N = G m c :=
  (dats m 0 c).arrAt_eq_of_cover 6 (G m c) (fun t _ => flushed_eq m c t) cover

end Cert.KernelIdeal.ArrayValue

end
-- ==== Proof.RefArray.lean ====
/-
  The reference's result is the layer's output function of the feature array, the aggregated array, the weights and
  the biases: its two matrix products are the two sums over the 128 feature columns, its bias rows are read at the
  output column, and its final bias is added last where the layer adds it inside the second summand.
-/
import proofs.«416836_j70231305225060_1_alg».proof.Proof.Gen.ReferenceIdeal.Read
import proofs.«416836_j70231305225060_1_alg».proof.Proof.Spec

noncomputable section

namespace Cert.ReferenceIdeal.RefValue

open Cert.ReferenceIdeal Cert.ReferenceIdeal.Read Idealize.ShloMosaic Idealize.ShloMosaic.ValueIdx

/-- The reference's last stage, index by index, is the layer's output with the reference's own degree-normalised
    aggregate as the aggregated array. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v32 (F := Ideal) x0 x1 x2 x3 x4 x5
      = Cert.Layer.out x0 (val_main_v22 (F := Ideal) x0 x1) x2 x4 x3 x5 := by
  funext i
  rw [val_main_v32_apply, val_main_v31_apply, val_main_v28_apply, val_main_v26_apply, val_main_v23_apply,
    val_main_v25_apply, val_main_v24_apply, val_main_v27_apply, val_main_v30_apply, val_main_v29_apply,
    val_main_call0_v0_apply, val_main_call0_cst_apply]
  have hl23 : ∀ k, lidx_main_v23 i k = ix2 (i 0) k := fun k => funext fun a => by
    match a with | ⟨0, _⟩ => rfl | ⟨1, _⟩ => rfl
  have hr23 : ∀ k, ridx_main_v23 i k = ix2 k (i 1) := fun k => funext fun a => by
    match a with | ⟨0, _⟩ => rfl | ⟨1, _⟩ => rfl
  have hl27 : ∀ k, lidx_main_v27 i k = ix2 (i 0) k := fun k => funext fun a => by
    match a with | ⟨0, _⟩ => rfl | ⟨1, _⟩ => rfl
  have hr27 : ∀ k, ridx_main_v27 i k = ix2 k (i 1) := fun k => funext fun a => by
    match a with | ⟨0, _⟩ => rfl | ⟨1, _⟩ => rfl
  have hb3 : idx_main_v24 (idx_main_v25 i) = ix1 (i 1) := funext fun a => by
    match a with | ⟨0, _⟩ => rfl
  have hb5 : idx_main_v29 (idx_main_v30 i) = ix1 (i 1) := funext fun a => by
    match a with | ⟨0, _⟩ => rfl
  simp only [hl23, hr23, hl27, hr27, hb3, hb5, Ideal.maximumf_def, Ideal.addf_def, Ideal.ofBits_def]
  rw [Cert.Layer.regroup]
  rfl

end Cert.ReferenceIdeal.RefValue

end
-- ==== Proof.lean ====
/-
  One message-passing layer over 100000 nodes and 640000 edges, kernel against reference, on the extended reals.

  Both programs first build the same aggregated array on the host: the feature rows at the wrapped source indices are
  scatter-added onto the destination nodes and each node's sum is divided by the larger of its in-degree and 1. They
  differ in one place there: the kernel's program keeps a taken row only where the wrapped source index lies in
  [0, 99999] and fills it with a not-a-number pattern otherwise, while the reference's gather clamps the index. Under
  the precondition every source index reads in [-100000, 100000) — the range in which indexing a 100000-row array is
  defined — so the wrapped index always lies in [0, 99999], the guard keeps every row, and the two aggregated arrays
  are the same array (Proof/IndexRange, Proof/PreRange, Proof/TakeMask, Proof/HostAgg).

  The dense half is then  max ((x·Ws + bs) + (agg·Wn + bn), 0)  in the kernel, computed block by block over 20 blocks of
  5000 rows with the operands of each product narrowed to a 16-bit format first, against  max (((x·Ws + bs) + agg·Wn) + bn, 0)
  in the reference over the whole array. On the extended reals narrowing is the identity, each product is the sum over
  the 128 feature columns, row `p` of block `t` is row 5000·t + p of the array, and the two groupings of the four
  summands agree because addition is associative there — no finiteness is used (Proof/Spec, Proof/BlockValue,
  Proof/KernelArray, Proof/RefArray).

  The word-level kernel's idealization rewrote no operation, so there is nothing to preserve beyond the program's own text.
-/
import proofs.«416836_j70231305225060_1_alg».proof.Defs
import proofs.«416836_j70231305225060_1_alg».proof.Proof.Gen.Kernel
import proofs.«416836_j70231305225060_1_alg».proof.Proof.Gen.Kernel.Skeleton
import proofs.«416836_j70231305225060_1_alg».proof.Proof.Gen.Kernel.Launch
import proofs.«416836_j70231305225060_1_alg».proof.Proof.Gen.Kernel.Points
import proofs.«416836_j70231305225060_1_alg».proof.Proof.Gen.Kernel.Frame
import proofs.«416836_j70231305225060_1_alg».proof.Proof.Gen.KernelIdeal
import proofs.«416836_j70231305225060_1_alg».proof.Proof.Gen.KernelIdeal.Skeleton
import proofs.«416836_j70231305225060_1_alg».proof.Proof.Gen.KernelIdeal.Launch
import proofs.«416836_j70231305225060_1_alg».proof.Proof.Gen.KernelIdeal.Points
import proofs.«416836_j70231305225060_1_alg».proof.Proof.Gen.KernelIdeal.Frame
import proofs.«416836_j70231305225060_1_alg».proof.Proof.Gen.ReferenceIdeal
import proofs.«416836_j70231305225060_1_alg».proof.Proof.Gen.Pre_finite_inputs
import proofs.«416836_j70231305225060_1_alg».proof.Proof.Gen.KernelIdeal.Value
import proofs.«416836_j70231305225060_1_alg».proof.Proof.Gen.ReferenceIdeal.Run
import proofs.«416836_j70231305225060_1_alg».proof.Proof.Gen.ReferenceIdeal.Read
import proofs.«416836_j70231305225060_1_alg».proof.Proof.PreRange
import proofs.«416836_j70231305225060_1_alg».proof.Proof.HostAgg
import proofs.«416836_j70231305225060_1_alg».proof.Proof.KernelArray
import proofs.«416836_j70231305225060_1_alg».proof.Proof.RefArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every source index of the kernel's edge list passes both range tests. -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.KernelIdeal.S640000.Idx) :
    IntOp.cmpi .sge (Cert.KernelIdeal.HostAgg.srcOf (m ((c.tc : Thread Cert.KernelIdeal.nD Cert.KernelIdeal.τ).loc Cert.KernelIdeal.main_arg1)) e) 4294867296#32 = 1#1
    ∧ IntOp.cmpi .slt (Cert.KernelIdeal.HostAgg.srcOf (m ((c.tc : Thread Cert.KernelIdeal.nD Cert.KernelIdeal.τ).loc Cert.KernelIdeal.main_arg1)) e) 100000#32 = 1#1 :=
  Cert.Pre_finite_inputs.Range.src_range _ _ _ _ _ _ (hpre c) e

/-- Both programs end with the layer's output of the arguments, the aggregated array being the reference's own. -/
theorem algebraic : Cert.algebraic_KernelIdeal_ReferenceIdeal := by
  intro m ρ m' ρ' hpre hagree
  refine ⟨fun c => Cert.Layer.out
      (m ((c.tc : Thread Cert.KernelIdeal.nD Cert.KernelIdeal.τ).loc Cert.KernelIdeal.main_arg0))
      (Cert.ReferenceIdeal.Read.val_main_v22 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Value.run_blocks m ρ)
    rw [Cert.KernelIdeal.ArrayValue.final m c]
    unfold Cert.KernelIdeal.ArrayValue.G
    rw [Cert.KernelIdeal.Gen.V_main_arg0, Cert.KernelIdeal.Gen.V_main_arg2, Cert.KernelIdeal.Gen.V_main_arg3,
      Cert.KernelIdeal.Gen.V_main_arg4, Cert.KernelIdeal.Gen.V_main_arg5, Cert.KernelIdeal.HostAgg.V_agg,
      Cert.KernelIdeal.HostAgg.agg_eq_ref _ _ (src_in_range m hpre c)]
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
